-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000 : Shape := ⟨1, ![10000]⟩
abbrev S256x1 : Shape := ⟨2, ![256, 1]⟩
abbrev S1 : Shape := ⟨1, ![1]⟩
abbrev S256x128 : Shape := ⟨2, ![256, 128]⟩
abbrev S128 : Shape := ⟨1, ![128]⟩
abbrev S2x640000 : Shape := ⟨2, ![2, 640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000 : S_.BroadcastsInDim S10000 (![] : Fin 0 → Fin S10000.rank)
  reducesTo_S10000_S_d0 : S10000.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000 .f32) (main_arg2 : FVec F S256x1 .f32) (main_arg3 : FVec F S1 .f32) (main_arg4 : FVec F S256x128 .f32) (main_arg5 : FVec F S128 .f32) (main_arg6 : IVec S2x640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000 .f32 := Host.absf main_arg1
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_v13 main_v16
-- ==== Kernel.lean ====
abbrev S10000x128 : Shape := ⟨2, ![10000, 128]⟩
abbrev S10000 : Shape := ⟨1, ![10000]⟩
abbrev S256x1 : Shape := ⟨2, ![256, 1]⟩
abbrev S1 : Shape := ⟨1, ![1]⟩
abbrev S256x128 : Shape := ⟨2, ![256, 128]⟩
abbrev S128 : Shape := ⟨1, ![128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x1 : Shape := ⟨2, ![128, 1]⟩
abbrev S1x128 : Shape := ⟨2, ![1, 128]⟩
abbrev S1x1 : Shape := ⟨2, ![1, 1]⟩
abbrev S128x128 : Shape := ⟨2, ![128, 128]⟩
abbrev S2000x128 : Shape := ⟨2, ![2000, 128]⟩
abbrev S2000x1 : Shape := ⟨2, ![2000, 1]⟩
abbrev S2000 : Shape := ⟨1, ![2000]⟩
abbrev S10000x1 : Shape := ⟨2, ![10000, 1]⟩

abbrev nBuf : Space → Nat
  | .hbm => 72
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000, .f32⟩
  | .hbm, ⟨2, _⟩ => ⟨S256x1, .f32⟩
  | .hbm, ⟨3, _⟩ => ⟨S1, .f32⟩
  | .hbm, ⟨4, _⟩ => ⟨S256x128, .f32⟩
  | .hbm, ⟨5, _⟩ => ⟨S128, .f32⟩
  | .hbm, ⟨6, _⟩ => ⟨S2x640000, .i32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000, .f32⟩
  | .hbm, ⟨38, _⟩ => ⟨S640000x1, .f32⟩
  | .hbm, ⟨39, _⟩ => ⟨S128x1, .f32⟩
  | .hbm, ⟨40, _⟩ => ⟨S1x128, .f32⟩
  | .hbm, ⟨41, _⟩ => ⟨S128x1, .f32⟩
  | .hbm, ⟨42, _⟩ => ⟨S1x128, .f32⟩
  | .hbm, ⟨43, _⟩ => ⟨S1x1, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S640000x1, .f32⟩
  | .hbm, ⟨48, _⟩ => ⟨S_, .f32⟩
  | .hbm, ⟨49, _⟩ => ⟨S10000x1, .f32⟩
  | .hbm, ⟨50, _⟩ => ⟨S640000x1, .i32⟩
  | .hbm, ⟨51, _⟩ => ⟨S10000x1, .f32⟩
  | .hbm, ⟨52, _⟩ => ⟨S_, .f32⟩
  | .hbm, ⟨53, _⟩ => ⟨S10000x1, .f32⟩
  | .hbm, ⟨54, _⟩ => ⟨S10000x1, .f32⟩
  | .hbm, ⟨55, _⟩ => ⟨S_, .f32⟩
  | .hbm, ⟨56, _⟩ => ⟨S10000x1, .f32⟩
  | .hbm, ⟨57, _⟩ => ⟨S10000x1, .f32⟩
  | .hbm, ⟨58, _⟩ => ⟨S_, .i32⟩
  | .hbm, ⟨59, _⟩ => ⟨S640000, .i32⟩
  | .hbm, ⟨60, _⟩ => ⟨S640000, .i1⟩
  | .hbm, ⟨61, _⟩ => ⟨S_, .i32⟩
  | .hbm, ⟨62, _⟩ => ⟨S640000, .i32⟩
  | .hbm, ⟨63, _⟩ => ⟨S640000, .i32⟩
  | .hbm, ⟨64, _⟩ => ⟨S640000, .i32⟩
  | .hbm, ⟨65, _⟩ => ⟨S640000x1, .i32⟩
  | .hbm, ⟨66, _⟩ => ⟨S640000x1, .f32⟩
  | .hbm, ⟨67, _⟩ => ⟨S640000x128, .f32⟩
  | .hbm, ⟨68, _⟩ => ⟨S_, .f32⟩
  | .hbm, ⟨69, _⟩ => ⟨S10000x128, .f32⟩
  | .hbm, ⟨70, _⟩ => ⟨S640000x1, .i32⟩
  | .hbm, ⟨71, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S1x128, .f32⟩
  | .local _ .vmem, ⟨7, _⟩ => ⟨S1x128, .f32⟩
  | .local _ .vmem, ⟨8, _⟩ => ⟨S1x1, .f32⟩
  | .local _ .vmem, ⟨9, _⟩ => ⟨S2000x1, .f32⟩
  | .local _ .vmem, ⟨10, _⟩ => ⟨S2000x1, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S2000x1, .f32⟩
  | .local _ .vmem, ⟨18, _⟩ => ⟨S2000x1, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  slices_S256x1_S128x1_0_0 : S256x1.Slices ![0, 0] S128x1
  shapeCasts_S128x1_S1x128 : S128x1.ShapeCasts S1x128
  slices_S256x1_S128x1_128_0 : S256x1.Slices ![128, 0] S128x1
  shapeCasts_S1_S1x1 : S1.ShapeCasts S1x1
  slices_S256x128_S128x128_0_0 : S256x128.Slices ![0, 0] S128x128
  slices_S256x128_S128x128_128_0 : S256x128.Slices ![128, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bcast_S_S10000x1 : S_.BroadcastsInDim S10000x1 (![] : Fin 0 → Fin S10000x1.rank)
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S2000x1_S2000x128 : S2000x1.Broadcasts S2000x128
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  gather_S10000_S640000x1_S640000_n_0_n_n_0_1_1_wf : GatherDims.WF S10000 S640000x1 S640000 [] [0] [] [0] [] 1 ![1]
  scatter_S10000x1_S640000x1_S640000x1_1_0_0_1_wf : ScatterDims.WF S10000x1 S640000x1 S640000x1 [1] [0] [0] 1
  gather_S10000x1_S640000x1_S640000x1_1_0_n_n_0_1_11_wf : GatherDims.WF S10000x1 S640000x1 S640000x1 [1] [0] [] [0] [] 1 ![1, 1]
  dot_S2000x128_S128x128_S2000x128_1_0_0_1_n_n_wf : DotDims.WF S2000x128 S128x128 S2000x128 [1] [0] [0] [1] [] []
  scatter_S10000x128_S640000x1_S640000x128_1_0_0_1_wf : ScatterDims.WF S10000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S640000x128.size a
  hwx0_0 : ∀ i : grid0.Coords, EltTy.bits .f32 = 32 ∨ (Rect.block (s := S640000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S640000x128.size a
  hwx0_1 : ∀ i : grid0.Coords, EltTy.bits .f32 = 32 ∨ (Rect.block (s := S640000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S640000x1.size a
  hwx0_2 : ∀ i : grid0.Coords, EltTy.bits .f32 = 32 ∨ (Rect.block (s := S640000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S640000x1.size a
  hwx0_6 : ∀ i : grid0.Coords, EltTy.bits .f32 = 32 ∨ (Rect.block (s := S640000x1) S2000x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S640000x128.size a
  hwx1_0 : ∀ i : grid1.Coords, EltTy.bits .f32 = 32 ∨ (Rect.block (s := S640000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S640000x128.size a
  hwx1_1 : ∀ i : grid1.Coords, EltTy.bits .f32 = 32 ∨ (Rect.block (s := S640000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S640000x1.size a
  hwx1_2 : ∀ i : grid1.Coords, EltTy.bits .f32 = 32 ∨ (Rect.block (s := S640000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S640000x1.size a
  hwx1_3 : ∀ i : grid1.Coords, EltTy.bits .f32 = 32 ∨ (Rect.block (s := S640000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S640000x128.size a
  hwx1_7 : ∀ i : grid1.Coords, EltTy.bits .f32 = 32 ∨ (Rect.block (s := S640000x128) S2000x128.size (cc1_transform_7 i) (hinb1_7 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10000x1_S640000x1_S640000x1_1_0_0_1 : ScatterDims S10000x1 S640000x1 S640000x1 where
  updateWindowDims := [1]
  insertedWindowDims := [0]
  scatterDimsToOperandDims := [0]
  indexVectorDim := 1
  wf := scatter_S10000x1_S640000x1_S640000x1_1_0_0_1_wf
def gather_S10000x1_S640000x1_S640000x1_1_0_n_n_0_1_11 : GatherDims S10000x1 S640000x1 S640000x1 where
  offsetDims := [1]
  collapsedSliceDims := [0]
  operandBatchingDims := []
  startIndicesBatchingDims := []
  startIndexMap := [0]
  indexVectorDim := 1
  sliceSizes := ![1, 1]
  wf := gather_S10000x1_S640000x1_S640000x1_1_0_n_n_0_1_11_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

abbrev win0_0 : Pipeline.Window sig grid0 :=
  Pipeline.Window.ofSpec (Memref.whole main_v10) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S2000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000 : Shape := ⟨1, ![10000]⟩
abbrev S256x1 : Shape := ⟨2, ![256, 1]⟩
abbrev S1 : Shape := ⟨1, ![1]⟩
abbrev S256x128 : Shape := ⟨2, ![256, 128]⟩
abbrev S128 : Shape := ⟨1, ![128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x1 : Shape := ⟨2, ![1, 1]⟩
abbrev S10000x1 : Shape := ⟨2, ![10000, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000, .f32⟩
  | .hbm, ⟨2, _⟩ => ⟨S256x1, .f32⟩
  | .hbm, ⟨3, _⟩ => ⟨S1, .f32⟩
  | .hbm, ⟨4, _⟩ => ⟨S256x128, .f32⟩
  | .hbm, ⟨5, _⟩ => ⟨S128, .f32⟩
  | .hbm, ⟨6, _⟩ => ⟨S2x640000, .i32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x256, .f32⟩
  | .hbm, ⟨30, _⟩ => ⟨S640000x1, .f32⟩
  | .hbm, ⟨31, _⟩ => ⟨S1x1, .f32⟩
  | .hbm, ⟨32, _⟩ => ⟨S640000x1, .f32⟩
  | .hbm, ⟨33, _⟩ => ⟨S640000x1, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000, .f32⟩
  | .hbm, ⟨43, _⟩ => ⟨S640000x1, .f32⟩
  | .hbm, ⟨44, _⟩ => ⟨S640000x1, .f32⟩
  | .hbm, ⟨45, _⟩ => ⟨S640000x1, .f32⟩
  | .hbm, ⟨46, _⟩ => ⟨S_, .f32⟩
  | .hbm, ⟨47, _⟩ => ⟨S10000x1, .f32⟩
  | .hbm, ⟨48, _⟩ => ⟨S640000x1, .i32⟩
  | .hbm, ⟨49, _⟩ => ⟨S10000x1, .f32⟩
  | .hbm, ⟨50, _⟩ => ⟨S_, .f32⟩
  | .hbm, ⟨51, _⟩ => ⟨S10000x1, .f32⟩
  | .hbm, ⟨52, _⟩ => ⟨S10000x1, .f32⟩
  | .hbm, ⟨53, _⟩ => ⟨S_, .f32⟩
  | .hbm, ⟨54, _⟩ => ⟨S10000x1, .f32⟩
  | .hbm, ⟨55, _⟩ => ⟨S10000x1, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S640000x1, .f32⟩
  | .hbm, ⟨65, _⟩ => ⟨S640000x1, .f32⟩
  | .hbm, ⟨66, _⟩ => ⟨S640000x128, .f32⟩
  | .hbm, ⟨67, _⟩ => ⟨S1x128, .f32⟩
  | .hbm, ⟨68, _⟩ => ⟨S640000x128, .f32⟩
  | .hbm, ⟨69, _⟩ => ⟨S640000x128, .f32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S10000x128, .f32⟩
  | .hbm, ⟨74, _⟩ => ⟨S640000x1, .i32⟩
  | .hbm, ⟨75, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S10000x1 : S_.BroadcastsInDim S10000x1 (![] : Fin 0 → Fin S10000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  dot_S640000x256_S256x1_S640000x1_1_0_0_1_n_n_wf : DotDims.WF S640000x256 S256x1 S640000x1 [1] [0] [0] [1] [] []
  gather_S10000_S640000x1_S640000_n_0_n_n_0_1_1_wf : GatherDims.WF S10000 S640000x1 S640000 [] [0] [] [0] [] 1 ![1]
  scatter_S10000x1_S640000x1_S640000x1_1_0_0_1_wf : ScatterDims.WF S10000x1 S640000x1 S640000x1 [1] [0] [0] 1
  gather_S10000x1_S640000x1_S640000x1_1_0_n_n_0_1_11_wf : GatherDims.WF S10000x1 S640000x1 S640000x1 [1] [0] [] [0] [] 1 ![1, 1]
  dot_S640000x256_S256x128_S640000x128_1_0_0_1_n_n_wf : DotDims.WF S640000x256 S256x128 S640000x128 [1] [0] [0] [1] [] []
  scatter_S10000x128_S640000x1_S640000x128_1_0_0_1_wf : ScatterDims.WF S10000x128 S640000x1 S640000x128 [1] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x256_S256x1_S640000x1_1_0_0_1_n_n : DotDims S640000x256 S256x1 S640000x1 where
  lhsContracting := [1]
  rhsContracting := [0]
  lhsNonContracting := [0]
  rhsNonContracting := [1]
  lhsBatch := []
  rhsBatch := []
  wf := dot_S640000x256_S256x1_S640000x1_1_0_0_1_n_n_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10000x1_S640000x1_S640000x1_1_0_0_1 : ScatterDims S10000x1 S640000x1 S640000x1 where
  updateWindowDims := [1]
  insertedWindowDims := [0]
  scatterDimsToOperandDims := [0]
  indexVectorDim := 1
  wf := scatter_S10000x1_S640000x1_S640000x1_1_0_0_1_wf
def gather_S10000x1_S640000x1_S640000x1_1_0_n_n_0_1_11 : GatherDims S10000x1 S640000x1 S640000x1 where
  offsetDims := [1]
  collapsedSliceDims := [0]
  operandBatchingDims := []
  startIndicesBatchingDims := []
  startIndexMap := [0]
  indexVectorDim := 1
  sliceSizes := ![1, 1]
  wf := gather_S10000x1_S640000x1_S640000x1_1_0_n_n_0_1_11_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.GateBody.lean ====
/-
  The gate body's arithmetic, read at one row.

  The body of the first kernel region takes a block of 2000 edges: the gathered source rows `xr`, the gathered target rows
  `xc` (2000 × 128 each), the edge weights `w` (2000 × 1), the two halves `gr`, `gc` of the gate vector laid out as rows
  (1 × 128) and the gate bias `b` (1 × 1), and writes, for each edge `p` of the block,

      w p · exp ((Σ_k xr p k · gr k  +  Σ_k xc p k · gc k)  +  b).

  At the ideal instance every operation of the body is the exact one on the extended reals, a change of layout only
  renames indices, and a lane sum from the zero accumulator is the plain finite sum: this module proves that reading.
-/
import proofs.«163910_j53274774340079_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GateBody

open Cert.KernelIdeal Cert.KernelIdeal.Gen Idealize.ShloMosaic Idealize.ShloMosaic.ValueIdx

/-- The exponential of a vector, read at an index. -/
theorem exp_apply {s : Shape} {φ : FTy} (a : FVec Ideal s φ) (i : s.Idx) : exp a i = Ideal.exp (a i) := rfl

/-- A lane sum of a 2000 × 128 block from the zero accumulator, read at row `p`: the sum of that row. -/
theorem laneSum_apply (v : FVec Ideal S2000x128 .f32) (p : Fin 2000) :
    multiReduction (F := Ideal) .add [1] S2000 v 0x00000000#32 reduces_S2000x128_S2000 (.inl rfl) rfl (ix1 p)
      = ∑ k : Fin 128, v (ix2 p k) := by
  refine (Ideal.multiReduction_add_single v 0x00000000#32 reduces_S2000x128_S2000 (.inl rfl) rfl (ix1 p)).trans ?_
  show ∑ k : Fin 128, v (reduces_S2000x128_S2000.lift (ix1 p) k) = _
  refine Finset.sum_congr rfl fun k _ => congrArg v (funext fun c => Fin.ext ?_)
  match c with
  | ⟨0, _⟩ => rfl
  | ⟨1, _⟩ => rfl

/-- A length-2000 vector laid out as a 2000 × 1 column, read at `(p, 0)`. -/
theorem column_apply {α : Type} (r : S2000.Idx → α) (h : S2000.ShapeCasts S2000x1) (p : Fin 2000) :
    shapeCast S2000x1 r h (ix2 p (0 : Fin 1)) = r (ix1 p) :=
  shapeCast_apply r h _ _ (by
    rw [Shape.rowMajor_val_two, Shape.rowMajor_val_one]
    show p.val = p.val * 1 + 0
    omega)

/-- What the gate body stores for edge `p` of its block. -/
theorem pay_apply (x0 x1 : Vec Ideal S2000x128 .f32) (x3 x4 : Vec Ideal S1x128 .f32) (x5 : Vec Ideal S1x1 .f32)
    (x2 : Vec Ideal S2000x1 .f32) (p : Fin 2000) :
    k0_pay1 (F := Ideal) x0 x1 x3 x4 x5 x2 (ix2 p (0 : Fin 1))
      = x2 (ix2 p (0 : Fin 1)) * Ideal.exp (((∑ k : Fin 128, x0 (ix2 p k) * x3 (ix2 (0 : Fin 1) k))
          + (∑ k : Fin 128, x1 (ix2 p k) * x4 (ix2 (0 : Fin 1) k))) + x5 (ix2 (0 : Fin 1) (0 : Fin 1))) := by
  unfold k0_pay1
  simp only [shapeCast_self]
  rw [mulf_apply, exp_apply, addf_apply, addf_apply, column_apply, column_apply, laneSum_apply, laneSum_apply,
    broadcastTo_1b_ab_apply]
  simp only [mulf_apply, broadcastTo_1b_ab_apply]

end Cert.KernelIdeal.GateBody

end
-- ==== Proof.EdgeFns.lean ====
/-
  The two kernel regions as functions of whole arrays.

  With E = 640000 edges, `xr` and `xc` the gathered source and target rows (E × 128), and all sums over the 128 features:

    gateArr xr xc w gr gc b   at edge e        =  w e · exp ((Σ_k xr e k · gr k + Σ_k xc e k · gc k) + b)
    msgArr xr xc a v mr mc b  at (e, q)        =  (a e · v e) · ((Σ_k xr e k · mr k q + Σ_k xc e k · mc k q) + b q)

  Each kernel region computes its function 2000 edges at a time; the reference computes the same two arrays from the
  concatenated rows and the unsplit weight matrices.
-/
import proofs.«163910_j53274774340079_1_alg».proof.KernelIdeal
import Idealize.ShloMosaic.PureOps.Ideal
import Idealize.ShloMosaic.Lib.ValueIdx

noncomputable section

namespace Cert.Edge

open Cert.KernelIdeal Idealize.ShloMosaic Idealize.ShloMosaic.ValueIdx

/-- The unnormalised gate weight of edge `e`. -/
def gateAt (xr xc : Vec Ideal S640000x128 .f32) (w : Vec Ideal S640000x1 .f32) (gr gc : Vec Ideal S1x128 .f32)
    (b : Vec Ideal S1x1 .f32) (e : Fin 640000) : EReal :=
  w (ix2 e (0 : Fin 1)) * Ideal.exp (((∑ k : Fin 128, xr (ix2 e k) * gr (ix2 (0 : Fin 1) k))
    + (∑ k : Fin 128, xc (ix2 e k) * gc (ix2 (0 : Fin 1) k))) + b (ix2 (0 : Fin 1) (0 : Fin 1)))

/-- The gate weights of all edges, as an E × 1 array. -/
def gateArr (xr xc : Vec Ideal S640000x128 .f32) (w : Vec Ideal S640000x1 .f32) (gr gc : Vec Ideal S1x128 .f32)
    (b : Vec Ideal S1x1 .f32) : Vec Ideal S640000x1 .f32 :=
  fun i => gateAt xr xc w gr gc b ⟨(i 0).val, idx2_lt0 i⟩

/-- The weighted message of edge `e` at feature `q`. -/
def msgAt (xr xc : Vec Ideal S640000x128 .f32) (a v : Vec Ideal S640000x1 .f32) (mr mc : Vec Ideal S128x128 .f32)
    (b : Vec Ideal S1x128 .f32) (e : Fin 640000) (q : Fin 128) : EReal :=
  (a (ix2 e (0 : Fin 1)) * v (ix2 e (0 : Fin 1))) * (((∑ k : Fin 128, xr (ix2 e k) * mr (ix2 k q))
    + (∑ k : Fin 128, xc (ix2 e k) * mc (ix2 k q))) + b (ix2 (0 : Fin 1) q))

/-- The weighted messages of all edges, as an E × 128 array. -/
def msgArr (xr xc : Vec Ideal S640000x128 .f32) (a v : Vec Ideal S640000x1 .f32) (mr mc : Vec Ideal S128x128 .f32)
    (b : Vec Ideal S1x128 .f32) : Vec Ideal S640000x128 .f32 :=
  fun i => msgAt xr xc a v mr mc b ⟨(i 0).val, idx2_lt0 i⟩ ⟨(i 1).val, idx2_lt1 i⟩

end Cert.Edge

end
-- ==== Proof.GateRegion.lean ====
/-
  The first kernel region's result array.

  The region's grid has 320 points; point `t` takes rows `2000 t … 2000 t + 1999` of the three per-edge arrays (the gathered
  source rows, the gathered target rows, the edge weights) and the three small arrays whole, and writes rows
  `2000 t … 2000 t + 1999` of the result. So the body's value at row `p` of its block is the gate weight of edge
  `2000 t + p`, the 320 blocks tile the 640000 rows, and the region's result array is `Cert.Edge.gateArr` of the six arrays
  it is entered with.
-/
import proofs.«163910_j53274774340079_1_alg».proof.Proof.Gen.KernelIdeal.Frame
import proofs.«163910_j53274774340079_1_alg».proof.Proof.GateBody
import proofs.«163910_j53274774340079_1_alg».proof.Proof.EdgeFns
import Idealize.ShloMosaic.Lib.Pipeline.Value

set_option maxRecDepth 16384

noncomputable section

namespace Cert.KernelIdeal.GateRegion

open Cert.KernelIdeal Cert.KernelIdeal.Gen Cert.Edge
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the per-edge windows and the result move with the point along
    the rows, the small windows stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 320 := by
  have h := t.isLt
  have hN : cfg0.N = 320 := N_0
  omega

/-! ## Each window's block at a point, as entries of its array -/

theorem rows_xr (c : Dev nD) (t : Fin cfg0.N) (p : Fin 2000) (e : Fin 640000) (he : e.val = t.val * 2000 + p.val) (k : Fin 128) :
    (iblk0 V c 0 t : Vec Ideal S2000x128 .f32) (ix2 p k) = (V c main_v10 : Vec Ideal S640000x128 .f32) (ix2 e k) := by
  obtain ⟨h0, h1, -⟩ := idx_facts t
  unfold iblk0
  rw [View.read_apply]
  show (V c main_v10 : Vec Ideal S640000x128 .f32) _ = (V c main_v10 : Vec Ideal S640000x128 .f32) _
  refine congrArg (V c main_v10 : Vec Ideal S640000x128 .f32) (funext fun a => Fin.ext ?_)
  match a with
  | ⟨0, _⟩ => show win0_0.index t (0 : Fin 2) * 2000 + 1 * p.val = e.val; rw [h0, he]; omega
  | ⟨1, _⟩ => show win0_0.index t (1 : Fin 2) * 128 + 1 * k.val = k.val; rw [h1]; omega

theorem rows_xc (c : Dev nD) (t : Fin cfg0.N) (p : Fin 2000) (e : Fin 640000) (he : e.val = t.val * 2000 + p.val) (k : Fin 128) :
    (iblk0 V c 1 t : Vec Ideal S2000x128 .f32) (ix2 p k) = (V c main_v17 : Vec Ideal S640000x128 .f32) (ix2 e k) := by
  obtain ⟨-, -, h0, h1, -⟩ := idx_facts t
  unfold iblk0
  rw [View.read_apply]
  show (V c main_v17 : Vec Ideal S640000x128 .f32) _ = (V c main_v17 : Vec Ideal S640000x128 .f32) _
  refine congrArg (V c main_v17 : Vec Ideal S640000x128 .f32) (funext fun a => Fin.ext ?_)
  match a with
  | ⟨0, _⟩ => show win0_1.index t (0 : Fin 2) * 2000 + 1 * p.val = e.val; rw [h0, he]; omega
  | ⟨1, _⟩ => show win0_1.index t (1 : Fin 2) * 128 + 1 * k.val = k.val; rw [h1]; omega

theorem rows_w (c : Dev nD) (t : Fin cfg0.N) (p : Fin 2000) (e : Fin 640000) (he : e.val = t.val * 2000 + p.val) :
    (iblk0 V c 2 t : Vec Ideal S2000x1 .f32) (ix2 p (0 : Fin 1)) = (V c main_v25 : Vec Ideal S640000x1 .f32) (ix2 e (0 : Fin 1)) := by
  obtain ⟨-, -, -, -, h0, h1, -⟩ := idx_facts t
  unfold iblk0
  rw [View.read_apply]
  show (V c main_v25 : Vec Ideal S640000x1 .f32) _ = (V c main_v25 : Vec Ideal S640000x1 .f32) _
  refine congrArg (V c main_v25 : Vec Ideal S640000x1 .f32) (funext fun a => Fin.ext ?_)
  match a with
  | ⟨0, _⟩ => show win0_2.index t (0 : Fin 2) * 2000 + 1 * p.val = e.val; rw [h0, he]; omega
  | ⟨1, _⟩ => show win0_2.index t (1 : Fin 2) * 1 + 1 * 0 = 0; rw [h1]

theorem whole_gr (c : Dev nD) (t : Fin cfg0.N) (k : Fin 128) :
    (iblk0 V c 3 t : Vec Ideal S1x128 .f32) (ix2 (0 : Fin 1) k) = (V c main_v27 : Vec Ideal S1x128 .f32) (ix2 (0 : Fin 1) k) := by
  obtain ⟨-, -, -, -, -, -, h0, h1, -⟩ := idx_facts t
  unfold iblk0
  rw [View.read_apply]
  show (V c main_v27 : Vec Ideal S1x128 .f32) _ = (V c main_v27 : Vec Ideal S1x128 .f32) _
  refine congrArg (V c main_v27 : Vec Ideal S1x128 .f32) (funext fun a => Fin.ext ?_)
  match a with
  | ⟨0, _⟩ => show win0_3.index t (0 : Fin 2) * 1 + 1 * 0 = 0; rw [h0]
  | ⟨1, _⟩ => show win0_3.index t (1 : Fin 2) * 128 + 1 * k.val = k.val; rw [h1]; omega

theorem whole_gc (c : Dev nD) (t : Fin cfg0.N) (k : Fin 128) :
    (iblk0 V c 4 t : Vec Ideal S1x128 .f32) (ix2 (0 : Fin 1) k) = (V c main_v29 : Vec Ideal S1x128 .f32) (ix2 (0 : Fin 1) k) := by
  obtain ⟨-, -, -, -, -, -, -, -, h0, h1, -⟩ := idx_facts t
  unfold iblk0
  rw [View.read_apply]
  show (V c main_v29 : Vec Ideal S1x128 .f32) _ = (V c main_v29 : Vec Ideal S1x128 .f32) _
  refine congrArg (V c main_v29 : Vec Ideal S1x128 .f32) (funext fun a => Fin.ext ?_)
  match a with
  | ⟨0, _⟩ => show win0_4.index t (0 : Fin 2) * 1 + 1 * 0 = 0; rw [h0]
  | ⟨1, _⟩ => show win0_4.index t (1 : Fin 2) * 128 + 1 * k.val = k.val; rw [h1]; omega

theorem whole_b (c : Dev nD) (t : Fin cfg0.N) :
    (iblk0 V c 5 t : Vec Ideal S1x1 .f32) (ix2 (0 : Fin 1) (0 : Fin 1)) = (V c main_v30 : Vec Ideal S1x1 .f32) (ix2 (0 : Fin 1) (0 : Fin 1)) := by
  obtain ⟨-, -, -, -, -, -, -, -, -, -, h0, h1, -⟩ := idx_facts t
  unfold iblk0
  rw [View.read_apply]
  show (V c main_v30 : Vec Ideal S1x1 .f32) _ = (V c main_v30 : Vec Ideal S1x1 .f32) _
  refine congrArg (V c main_v30 : Vec Ideal S1x1 .f32) (funext fun a => Fin.ext ?_)
  match a with
  | ⟨0, _⟩ => show win0_5.index t (0 : Fin 2) * 1 + 1 * 0 = 0; rw [h0]
  | ⟨1, _⟩ => show win0_5.index t (1 : Fin 2) * 1 + 1 * 0 = 0; rw [h1]

/-! ## The body's value at a row of its block is that edge's gate weight -/

theorem body_row (c : Dev nD) (t : Fin cfg0.N) (p : Fin 2000) (e : Fin 640000) (he : e.val = t.val * 2000 + p.val) :
    k0_pay1 (F := Ideal) (iblk0 V c 0 t) (iblk0 V c 1 t) (iblk0 V c 3 t) (iblk0 V c 4 t) (iblk0 V c 5 t) (iblk0 V c 2 t) (ix2 p (0 : Fin 1))
      = gateAt (V c main_v10) (V c main_v17) (V c main_v25) (V c main_v27) (V c main_v29) (V c main_v30) e := by
  refine (GateBody.pay_apply (iblk0 V c 0 t) (iblk0 V c 1 t) (iblk0 V c 3 t) (iblk0 V c 4 t) (iblk0 V c 5 t) (iblk0 V c 2 t) p).trans ?_
  unfold gateAt
  simp only [rows_xr V c t p e he, rows_xc V c t p e he, rows_w V c t p e he, whole_gr V c t, whole_gc V c t, whole_b V c t]

theorem body_at (c : Dev nD) (t : Fin cfg0.N) (y : S2000x1.Idx) :
    k0_pay1 (F := Ideal) (iblk0 V c 0 t) (iblk0 V c 1 t) (iblk0 V c 3 t) (iblk0 V c 4 t) (iblk0 V c 5 t) (iblk0 V c 2 t) y
      = gateArr (V c main_v10) (V c main_v17) (V c main_v25) (V c main_v27) (V c main_v29) (V c main_v30)
          (((cfg0.win 6).blk t).view.emb y) := by
  obtain ⟨p, z, rfl⟩ : ∃ (p : Fin 2000) (z : Fin 1), y = ix2 p z := ⟨y 0, y 1, eq_ix2 y⟩
  obtain rfl : z = 0 := Subsingleton.elim _ _
  have ht := point_lt t
  obtain ⟨-, -, -, -, -, -, -, -, -, -, -, -, h0, -⟩ := idx_facts t
  refine (body_row V c t p ⟨t.val * 2000 + p.val, by omega⟩ rfl).trans ?_
  unfold gateArr
  refine congrArg (gateAt (V c main_v10) (V c main_v17) (V c main_v25) (V c main_v27) (V c main_v29) (V c main_v30)) (Fin.ext ?_)
  show t.val * 2000 + p.val = win0_6.index t (0 : Fin 2) * 2000 + 1 * p.val
  rw [h0]; omega

/-! ## What a point writes back, the cover, the array -/

theorem flushed (c : Dev nD) (t : Fin cfg0.N) :
    (dat0 V c).flushed 6 t = ((cfg0.win 6).blk t).view.read (Elt Ideal)
      (gateArr (V c main_v10) (V c main_v17) (V c main_v25) (V c main_v27) (V c main_v29) (V c main_v30)) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S1x128) hz,
    View.ld_unit_zero (S := S1x1) hz]
  funext j
  exact body_at V c t j

/-- An index of the result array is in point `t`'s block iff its row is among the point's 2000 rows. -/
theorem mem_blk (t : Fin cfg0.N) (i : S640000x1.Idx) :
    i ∈ ((cfg0.win 6).blk t).view.set ↔ ∀ a : Fin 2, win0_6.index t a * S2000x1.size a ≤ (i a).val ∧ (i a).val < win0_6.index t a * S2000x1.size a + S2000x1.size a := by
  show i ∈ ((View.whole main_v34).slice (win0_6.rect t)).set ↔ _
  rw [View.set_slice_whole, Rect.mem_set_unit]
  exact Iff.rfl

theorem covered (i : S640000x1.Idx) : ∃ t : Fin cfg0.N, (cfg0.win 6).flush t = true ∧ i ∈ ((cfg0.win 6).blk t).view.set := by
  have hi0 : (i 0).val < 640000 := idx2_lt0 i
  have hi1 : (i 1).val < 1 := idx2_lt1 i
  have hN : cfg0.N = 320 := N_0
  refine ⟨⟨(i 0).val / 2000, by omega⟩, flush0_6 _, ?_⟩
  rw [mem_blk]
  obtain ⟨-, -, -, -, -, -, -, -, -, -, -, -, h0, h1⟩ := idx_facts ⟨(i 0).val / 2000, by omega⟩
  intro a
  match a with
  | ⟨0, _⟩ =>
    show win0_6.index _ (0 : Fin 2) * 2000 ≤ (i 0).val ∧ (i 0).val < win0_6.index _ (0 : Fin 2) * 2000 + 2000
    rw [h0]; show (i 0).val / 2000 * 2000 ≤ (i 0).val ∧ (i 0).val < (i 0).val / 2000 * 2000 + 2000; omega
  | ⟨1, _⟩ =>
    show win0_6.index _ (1 : Fin 2) * 1 ≤ (i 1).val ∧ (i 1).val < win0_6.index _ (1 : Fin 2) * 1 + 1
    rw [h1]; omega

/-- The region's result array: the gate weights of all edges. -/
theorem result (c : Dev nD) :
    (dat0 V c).arrAt 6 cfg0.N = gateArr (V c main_v10) (V c main_v17) (V c main_v25) (V c main_v27) (V c main_v29) (V c main_v30) :=
  (dat0 V c).arrAt_eq_of_cover 6 _ (fun t _ => flushed V c t) covered

end Cert.KernelIdeal.GateRegion

end
-- ==== Proof.MsgBody.lean ====
/-
  The message body's arithmetic, read at one entry.

  The body of the second kernel region takes a block of 2000 edges: the gathered source rows `xr` and target rows `xc`
  (2000 × 128 each), the unnormalised gate weights `a` and the gathered reciprocal row sums `v` (2000 × 1 each), the two
  halves `mr`, `mc` of the message matrix (128 × 128 each) and the message bias `b` (1 × 128), and writes, for edge `p`
  of the block and output feature `q`,

      (a p · v p) · ((Σ_k xr p k · mr k q  +  Σ_k xc p k · mc k q)  +  b q).

  At the ideal instance the conversions to the narrower float format are the identity and a matrix product into the zero
  accumulator is the plain finite sum over the contracted axis: this module proves that reading.
-/
import proofs.«163910_j53274774340079_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MsgBody

open Cert.KernelIdeal Cert.KernelIdeal.Gen Idealize.ShloMosaic Idealize.ShloMosaic.ValueIdx

/-! ## The matrix product's operand indices, axis by axis -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 × 128 by 128 × 128 product into the zero accumulator, read at `(p, q)`: row `p` against column `q`. -/
theorem product_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A 2000 × 1 column broadcast over 128 lanes, read at `(p, q)`: the column's entry of row `p`. -/
theorem columnBroadcast_apply {α : Type} (v : S2000x1.Idx → α) (h : S2000x1.Broadcasts S2000x128) (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ => show p.val = if (2000 : Nat) = 1 then 0 else p.val; rw [if_neg (by decide)]
  | ⟨1, _⟩ => show 0 = if (1 : Nat) = 1 then 0 else q.val; rw [if_pos rfl]

/-- What the message body stores for edge `p` of its block at feature `q`. -/
theorem pay_apply (x0 x1 : Vec Ideal S2000x128 .f32) (x4 x5 : Vec Ideal S128x128 .f32) (x6 : Vec Ideal S1x128 .f32)
    (x2 x3 : Vec Ideal S2000x1 .f32) (p : Fin 2000) (q : Fin 128) :
    k1_pay1 (F := Ideal) x0 x1 x4 x5 x6 x2 x3 (ix2 p q)
      = (x2 (ix2 p (0 : Fin 1)) * x3 (ix2 p (0 : Fin 1))) * (((∑ k : Fin 128, x0 (ix2 p k) * x4 (ix2 k q))
          + (∑ k : Fin 128, x1 (ix2 p k) * x5 (ix2 k q))) + x6 (ix2 (0 : Fin 1) q)) := by
  unfold k1_pay1
  simp only [shapeCast_self]
  rw [mulf_apply, columnBroadcast_apply, mulf_apply, addf_apply, addf_apply, product_apply, product_apply,
    broadcastTo_1b_ab_apply]
  simp only [truncf_apply]

end Cert.KernelIdeal.MsgBody

end
-- ==== Proof.MsgRegion.lean ====
/-
  The second kernel region's result array.

  The region's grid has 320 points; point `t` takes rows `2000 t … 2000 t + 1999` of the four per-edge arrays (the gathered
  source rows, the gathered target rows, the gate weights, the gathered reciprocal row sums) and the two halves of the
  message matrix and the message bias whole, and writes rows `2000 t … 2000 t + 1999` of the result. So the body's value
  at `(p, q)` of its block is the weighted message of edge `2000 t + p` at feature `q`, the 320 blocks tile the 640000
  rows, and the region's result array is `Cert.Edge.msgArr` of the seven arrays it is entered with.
-/
import proofs.«163910_j53274774340079_1_alg».proof.Proof.Gen.KernelIdeal.Frame
import proofs.«163910_j53274774340079_1_alg».proof.Proof.MsgBody
import proofs.«163910_j53274774340079_1_alg».proof.Proof.EdgeFns
import Idealize.ShloMosaic.Lib.Pipeline.Value

set_option maxRecDepth 16384

noncomputable section

namespace Cert.KernelIdeal.MsgRegion

open Cert.KernelIdeal Cert.KernelIdeal.Gen Cert.Edge
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the per-edge windows and the result move with the point along
    the rows, the whole-array windows stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem point_lt (t : Fin cfg1.N) : t.val < 320 := by
  have h := t.isLt
  have hN : cfg1.N = 320 := N_1
  omega

/-! ## Each window's block at a point, as entries of its array -/

theorem rows_xr (c : Dev nD) (t : Fin cfg1.N) (p : Fin 2000) (e : Fin 640000) (he : e.val = t.val * 2000 + p.val) (k : Fin 128) :
    (iblk1 V c 0 t : Vec Ideal S2000x128 .f32) (ix2 p k) = (V c main_v10 : Vec Ideal S640000x128 .f32) (ix2 e k) := by
  obtain ⟨h0, h1, -⟩ := idx_facts t
  unfold iblk1
  rw [View.read_apply]
  show (V c main_v10 : Vec Ideal S640000x128 .f32) _ = (V c main_v10 : Vec Ideal S640000x128 .f32) _
  refine congrArg (V c main_v10 : Vec Ideal S640000x128 .f32) (funext fun a => Fin.ext ?_)
  match a with
  | ⟨0, _⟩ => show win1_0.index t (0 : Fin 2) * 2000 + 1 * p.val = e.val; rw [h0, he]; omega
  | ⟨1, _⟩ => show win1_0.index t (1 : Fin 2) * 128 + 1 * k.val = k.val; rw [h1]; omega

theorem rows_xc (c : Dev nD) (t : Fin cfg1.N) (p : Fin 2000) (e : Fin 640000) (he : e.val = t.val * 2000 + p.val) (k : Fin 128) :
    (iblk1 V c 1 t : Vec Ideal S2000x128 .f32) (ix2 p k) = (V c main_v17 : Vec Ideal S640000x128 .f32) (ix2 e k) := by
  obtain ⟨-, -, h0, h1, -⟩ := idx_facts t
  unfold iblk1
  rw [View.read_apply]
  show (V c main_v17 : Vec Ideal S640000x128 .f32) _ = (V c main_v17 : Vec Ideal S640000x128 .f32) _
  refine congrArg (V c main_v17 : Vec Ideal S640000x128 .f32) (funext fun a => Fin.ext ?_)
  match a with
  | ⟨0, _⟩ => show win1_1.index t (0 : Fin 2) * 2000 + 1 * p.val = e.val; rw [h0, he]; omega
  | ⟨1, _⟩ => show win1_1.index t (1 : Fin 2) * 128 + 1 * k.val = k.val; rw [h1]; omega

theorem rows_a (c : Dev nD) (t : Fin cfg1.N) (p : Fin 2000) (e : Fin 640000) (he : e.val = t.val * 2000 + p.val) :
    (iblk1 V c 2 t : Vec Ideal S2000x1 .f32) (ix2 p (0 : Fin 1)) = (V c main_v34 : Vec Ideal S640000x1 .f32) (ix2 e (0 : Fin 1)) := by
  obtain ⟨-, -, -, -, h0, h1, -⟩ := idx_facts t
  unfold iblk1
  rw [View.read_apply]
  show (V c main_v34 : Vec Ideal S640000x1 .f32) _ = (V c main_v34 : Vec Ideal S640000x1 .f32) _
  refine congrArg (V c main_v34 : Vec Ideal S640000x1 .f32) (funext fun a => Fin.ext ?_)
  match a with
  | ⟨0, _⟩ => show win1_2.index t (0 : Fin 2) * 2000 + 1 * p.val = e.val; rw [h0, he]; omega
  | ⟨1, _⟩ => show win1_2.index t (1 : Fin 2) * 1 + 1 * 0 = 0; rw [h1]

theorem rows_v (c : Dev nD) (t : Fin cfg1.N) (p : Fin 2000) (e : Fin 640000) (he : e.val = t.val * 2000 + p.val) :
    (iblk1 V c 3 t : Vec Ideal S2000x1 .f32) (ix2 p (0 : Fin 1)) = (V c main_v48 : Vec Ideal S640000x1 .f32) (ix2 e (0 : Fin 1)) := by
  obtain ⟨-, -, -, -, -, -, h0, h1, -⟩ := idx_facts t
  unfold iblk1
  rw [View.read_apply]
  show (V c main_v48 : Vec Ideal S640000x1 .f32) _ = (V c main_v48 : Vec Ideal S640000x1 .f32) _
  refine congrArg (V c main_v48 : Vec Ideal S640000x1 .f32) (funext fun a => Fin.ext ?_)
  match a with
  | ⟨0, _⟩ => show win1_3.index t (0 : Fin 2) * 2000 + 1 * p.val = e.val; rw [h0, he]; omega
  | ⟨1, _⟩ => show win1_3.index t (1 : Fin 2) * 1 + 1 * 0 = 0; rw [h1]

theorem whole_mr (c : Dev nD) (t : Fin cfg1.N) (k q : Fin 128) :
    (iblk1 V c 4 t : Vec Ideal S128x128 .f32) (ix2 k q) = (V c main_v31 : Vec Ideal S128x128 .f32) (ix2 k q) := by
  obtain ⟨-, -, -, -, -, -, -, -, h0, h1, -⟩ := idx_facts t
  unfold iblk1
  rw [View.read_apply]
  show (V c main_v31 : Vec Ideal S128x128 .f32) _ = (V c main_v31 : Vec Ideal S128x128 .f32) _
  refine congrArg (V c main_v31 : Vec Ideal S128x128 .f32) (funext fun a => Fin.ext ?_)
  match a with
  | ⟨0, _⟩ => show win1_4.index t (0 : Fin 2) * 128 + 1 * k.val = k.val; rw [h0]; omega
  | ⟨1, _⟩ => show win1_4.index t (1 : Fin 2) * 128 + 1 * q.val = q.val; rw [h1]; omega

theorem whole_mc (c : Dev nD) (t : Fin cfg1.N) (k q : Fin 128) :
    (iblk1 V c 5 t : Vec Ideal S128x128 .f32) (ix2 k q) = (V c main_v32 : Vec Ideal S128x128 .f32) (ix2 k q) := by
  obtain ⟨-, -, -, -, -, -, -, -, -, -, h0, h1, -⟩ := idx_facts t
  unfold iblk1
  rw [View.read_apply]
  show (V c main_v32 : Vec Ideal S128x128 .f32) _ = (V c main_v32 : Vec Ideal S128x128 .f32) _
  refine congrArg (V c main_v32 : Vec Ideal S128x128 .f32) (funext fun a => Fin.ext ?_)
  match a with
  | ⟨0, _⟩ => show win1_5.index t (0 : Fin 2) * 128 + 1 * k.val = k.val; rw [h0]; omega
  | ⟨1, _⟩ => show win1_5.index t (1 : Fin 2) * 128 + 1 * q.val = q.val; rw [h1]; omega

theorem whole_b (c : Dev nD) (t : Fin cfg1.N) (q : Fin 128) :
    (iblk1 V c 6 t : Vec Ideal S1x128 .f32) (ix2 (0 : Fin 1) q) = (V c main_v33 : Vec Ideal S1x128 .f32) (ix2 (0 : Fin 1) q) := by
  obtain ⟨-, -, -, -, -, -, -, -, -, -, -, -, h0, h1, -⟩ := idx_facts t
  unfold iblk1
  rw [View.read_apply]
  show (V c main_v33 : Vec Ideal S1x128 .f32) _ = (V c main_v33 : Vec Ideal S1x128 .f32) _
  refine congrArg (V c main_v33 : Vec Ideal S1x128 .f32) (funext fun a => Fin.ext ?_)
  match a with
  | ⟨0, _⟩ => show win1_6.index t (0 : Fin 2) * 1 + 1 * 0 = 0; rw [h0]
  | ⟨1, _⟩ => show win1_6.index t (1 : Fin 2) * 128 + 1 * q.val = q.val; rw [h1]; omega

/-! ## The body's value at an entry of its block is that edge's weighted message -/

theorem body_entry (c : Dev nD) (t : Fin cfg1.N) (p : Fin 2000) (q : Fin 128) (e : Fin 640000) (he : e.val = t.val * 2000 + p.val) :
    k1_pay1 (F := Ideal) (iblk1 V c 0 t) (iblk1 V c 1 t) (iblk1 V c 4 t) (iblk1 V c 5 t) (iblk1 V c 6 t) (iblk1 V c 2 t) (iblk1 V c 3 t) (ix2 p q)
      = msgAt (V c main_v10) (V c main_v17) (V c main_v34) (V c main_v48) (V c main_v31) (V c main_v32) (V c main_v33) e q := by
  refine (MsgBody.pay_apply (iblk1 V c 0 t) (iblk1 V c 1 t) (iblk1 V c 4 t) (iblk1 V c 5 t) (iblk1 V c 6 t) (iblk1 V c 2 t) (iblk1 V c 3 t) p q).trans ?_
  unfold msgAt
  simp only [rows_xr V c t p e he, rows_xc V c t p e he, rows_a V c t p e he, rows_v V c t p e he, whole_mr V c t, whole_mc V c t,
    whole_b V c t]

theorem body_at (c : Dev nD) (t : Fin cfg1.N) (y : S2000x128.Idx) :
    k1_pay1 (F := Ideal) (iblk1 V c 0 t) (iblk1 V c 1 t) (iblk1 V c 4 t) (iblk1 V c 5 t) (iblk1 V c 6 t) (iblk1 V c 2 t) (iblk1 V c 3 t) y
      = msgArr (V c main_v10) (V c main_v17) (V c main_v34) (V c main_v48) (V c main_v31) (V c main_v32) (V c main_v33)
          (((cfg1.win 7).blk t).view.emb y) := by
  obtain ⟨p, q, rfl⟩ : ∃ (p : Fin 2000) (q : Fin 128), y = ix2 p q := ⟨y 0, y 1, eq_ix2 y⟩
  have ht := point_lt t
  obtain ⟨-, -, -, -, -, -, -, -, -, -, -, -, -, -, h0, h1⟩ := idx_facts t
  refine (body_entry V c t p q ⟨t.val * 2000 + p.val, by omega⟩ rfl).trans ?_
  unfold msgArr
  refine congrArg₂ (msgAt (V c main_v10) (V c main_v17) (V c main_v34) (V c main_v48) (V c main_v31) (V c main_v32) (V c main_v33))
    (Fin.ext ?_) (Fin.ext ?_)
  · show t.val * 2000 + p.val = win1_7.index t (0 : Fin 2) * 2000 + 1 * p.val
    rw [h0]; omega
  · show q.val = win1_7.index t (1 : Fin 2) * 128 + 1 * q.val
    rw [h1]; omega

/-! ## What a point writes back, the cover, the array -/

theorem flushed (c : Dev nD) (t : Fin cfg1.N) :
    (dat1 V c).flushed 7 t = ((cfg1.win 7).blk t).view.read (Elt Ideal)
      (msgArr (V c main_v10) (V c main_v17) (V c main_v34) (V c main_v48) (V c main_v31) (V c main_v32) (V c main_v33)) := by
  show (cfg1.win 7).cut (grid1.coords t) ((dat1 V c).after 7 t) = _
  rw [after1_7]
  unfold out1_7
  rw [View.canon_unit_zero hz]
  simp only [View.ld_unit_zero (S := S2000x128) hz, View.ld_unit_zero (S := S2000x1) hz, View.ld_unit_zero (S := S128x128) hz,
    View.ld_unit_zero (S := S1x128) hz]
  funext j
  exact body_at V c t j

/-- An index of the result array is in point `t`'s block iff its row is among the point's 2000 rows. -/
theorem mem_blk (t : Fin cfg1.N) (i : S640000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v49).slice (win1_7.rect t)).set ↔ _
  rw [View.set_slice_whole, Rect.mem_set_unit]
  exact Iff.rfl

theorem covered (i : S640000x128.Idx) : ∃ t : Fin cfg1.N, (cfg1.win 7).flush t = true ∧ i ∈ ((cfg1.win 7).blk t).view.set := by
  have hi0 : (i 0).val < 640000 := idx2_lt0 i
  have hi1 : (i 1).val < 128 := idx2_lt1 i
  have hN : cfg1.N = 320 := N_1
  refine ⟨⟨(i 0).val / 2000, by omega⟩, flush1_7 _, ?_⟩
  rw [mem_blk]
  obtain ⟨-, -, -, -, -, -, -, -, -, -, -, -, -, -, h0, h1⟩ := idx_facts ⟨(i 0).val / 2000, by omega⟩
  intro a
  match a with
  | ⟨0, _⟩ =>
    show win1_7.index _ (0 : Fin 2) * 2000 ≤ (i 0).val ∧ (i 0).val < win1_7.index _ (0 : Fin 2) * 2000 + 2000
    rw [h0]; show (i 0).val / 2000 * 2000 ≤ (i 0).val ∧ (i 0).val < (i 0).val / 2000 * 2000 + 2000; omega
  | ⟨1, _⟩ =>
    show win1_7.index _ (1 : Fin 2) * 128 ≤ (i 1).val ∧ (i 1).val < win1_7.index _ (1 : Fin 2) * 128 + 128
    rw [h1]; omega

/-- The region's result array: the weighted messages of all edges. -/
theorem result (c : Dev nD) :
    (dat1 V c).arrAt 7 cfg1.N = msgArr (V c main_v10) (V c main_v17) (V c main_v34) (V c main_v48) (V c main_v31) (V c main_v32) (V c main_v33) :=
  (dat1 V c).arrAt_eq_of_cover 7 _ (fun t _ => flushed V c t) covered

end Cert.KernelIdeal.MsgRegion

end
-- ==== Proof.KernelStages.lean ====
/-
  The kernel program outside its two regions, as functions of the argument arrays.

  With `row = edge_index[0]`, `col = edge_index[1]` and a negative index wrapped once by the node count:
  the gathered source rows `x[row]`, target rows `x[col]` and edge weights `pos[col]` feed the first region (with the two
  halves of the gate vector and the gate bias); its result `a` is summed per source node, `1 / sum + 1e-16` is gathered
  back per edge and feeds the second region (with `a`, the gathered rows, the two halves of the message matrix and the
  message bias); its result is summed per source node into the program's result. The gathers and the per-node sums are
  the host's own operations, carried here as they are printed and never opened: the reference applies the same ones.
-/
import proofs.«163910_j53274774340079_1_alg».proof.Proof.Gen.KernelIdeal
import proofs.«163910_j53274774340079_1_alg».proof.Proof.EdgeFns

noncomputable section

namespace Cert.Edge

open Cert.KernelIdeal Cert.KernelIdeal.Gen Idealize.ShloMosaic

/-- `edge_index[0]`: every edge's source node. -/
def rowIds (x6 : (⟨S2x640000, .i32⟩ : BufTy).Contents (Elt Ideal)) : (⟨S640000, .i32⟩ : BufTy).Contents (Elt Ideal) :=
  shapeCast S640000 (extractStridedSlice S1x640000 ![0, 0] x6 slices_S2x640000_S1x640000_0_0) shapeCasts_S1x640000_S640000
/-- `edge_index[1]`: every edge's target node. -/
def colIds (x6 : (⟨S2x640000, .i32⟩ : BufTy).Contents (Elt Ideal)) : (⟨S640000, .i32⟩ : BufTy).Contents (Elt Ideal) :=
  shapeCast S640000 (extractStridedSlice S1x640000 ![1, 0] x6 slices_S2x640000_S1x640000_1_0) shapeCasts_S1x640000_S640000
/-- Node indices as a gather takes them: a negative one wrapped by the node count, one index per row. -/
def wrapped (r : (⟨S640000, .i32⟩ : BufTy).Contents (Elt Ideal)) : (⟨S640000x1, .i32⟩ : BufTy).Contents (Elt Ideal) :=
  broadcastInDim S640000x1 ![0] bcast_S640000_S640000x1_0
    (select (cmpi .slt r (broadcastInDim S640000 ![] bcast_S_S640000 (constantI S_ 32 0#32)))
      (addi r (broadcastInDim S640000 ![] bcast_S_S640000 (constantI S_ 32 10000#32))) r)
/-- `x[row]`. -/
def srcRows (x0 : (⟨S10000x128, .f32⟩ : BufTy).Contents (Elt Ideal)) (x6 : (⟨S2x640000, .i32⟩ : BufTy).Contents (Elt Ideal)) : (⟨S640000x128, .f32⟩ : BufTy).Contents (Elt Ideal) :=
  Host.gather gather_S10000x128_S640000x1_S640000x128_1_0_n_n_0_1_1128 x0 (wrapped (rowIds x6))
/-- `x[col]`. -/
def dstRows (x0 : (⟨S10000x128, .f32⟩ : BufTy).Contents (Elt Ideal)) (x6 : (⟨S2x640000, .i32⟩ : BufTy).Contents (Elt Ideal)) : (⟨S640000x128, .f32⟩ : BufTy).Contents (Elt Ideal) :=
  Host.gather gather_S10000x128_S640000x1_S640000x128_1_0_n_n_0_1_1128 x0 (wrapped (colIds x6))
/-- `pos[col]` as a column. -/
def edgeWeights (x1 : (⟨S10000, .f32⟩ : BufTy).Contents (Elt Ideal)) (x6 : (⟨S2x640000, .i32⟩ : BufTy).Contents (Elt Ideal)) : (⟨S640000x1, .f32⟩ : BufTy).Contents (Elt Ideal) :=
  broadcastInDim S640000x1 ![0] bcast_S640000_S640000x1_0 (Host.gather gather_S10000_S640000x1_S640000_n_0_n_n_0_1_1 x1 (wrapped (colIds x6)))

/-- The first 128 entries of the gate vector, as a row. -/
def gateRowHalf (x2 : (⟨S256x1, .f32⟩ : BufTy).Contents (Elt Ideal)) : (⟨S1x128, .f32⟩ : BufTy).Contents (Elt Ideal) :=
  shapeCast S1x128 (extractStridedSlice S128x1 ![0, 0] x2 slices_S256x1_S128x1_0_0) shapeCasts_S128x1_S1x128
/-- The last 128 entries of the gate vector, as a row. -/
def gateColHalf (x2 : (⟨S256x1, .f32⟩ : BufTy).Contents (Elt Ideal)) : (⟨S1x128, .f32⟩ : BufTy).Contents (Elt Ideal) :=
  shapeCast S1x128 (extractStridedSlice S128x1 ![128, 0] x2 slices_S256x1_S128x1_128_0) shapeCasts_S128x1_S1x128
/-- The gate bias as a 1 × 1 array. -/
def gateBias (x3 : (⟨S1, .f32⟩ : BufTy).Contents (Elt Ideal)) : (⟨S1x1, .f32⟩ : BufTy).Contents (Elt Ideal) := shapeCast S1x1 x3 shapeCasts_S1_S1x1
/-- The first 128 rows of the message matrix. -/
def msgRowHalf (x4 : (⟨S256x128, .f32⟩ : BufTy).Contents (Elt Ideal)) : (⟨S128x128, .f32⟩ : BufTy).Contents (Elt Ideal) :=
  extractStridedSlice S128x128 ![0, 0] x4 slices_S256x128_S128x128_0_0
/-- The last 128 rows of the message matrix. -/
def msgColHalf (x4 : (⟨S256x128, .f32⟩ : BufTy).Contents (Elt Ideal)) : (⟨S128x128, .f32⟩ : BufTy).Contents (Elt Ideal) :=
  extractStridedSlice S128x128 ![128, 0] x4 slices_S256x128_S128x128_128_0
/-- The message bias as a row. -/
def msgBias (x5 : (⟨S128, .f32⟩ : BufTy).Contents (Elt Ideal)) : (⟨S1x128, .f32⟩ : BufTy).Contents (Elt Ideal) := shapeCast S1x128 x5 shapeCasts_S128_S1x128

/-- `(1 / segment_sum(a, row) + 1e-16)[row]`: each edge's reciprocal of its source node's summed gate weights. -/
def recipRowSums (a : (⟨S640000x1, .f32⟩ : BufTy).Contents (Elt Ideal)) (x6 : (⟨S2x640000, .i32⟩ : BufTy).Contents (Elt Ideal)) : (⟨S640000x1, .f32⟩ : BufTy).Contents (Elt Ideal) :=
  Host.gather gather_S10000x1_S640000x1_S640000x1_1_0_n_n_0_1_11
    (addf (F := Ideal) (Host.divf (F := Ideal) (broadcastInDim S10000x1 ![] bcast_S_S10000x1 (constant (F := Ideal) S_ .f32 0x3F800000#32))
        (Host.scatterAdd (F := Ideal) scatter_S10000x1_S640000x1_S640000x1_1_0_0_1 (broadcastInDim S10000x1 ![] bcast_S_S10000x1 (constant (F := Ideal) S_ .f32 0x00000000#32))
          (broadcastInDim S640000x1 ![0] bcast_S640000_S640000x1_0 (rowIds x6)) a))
      (broadcastInDim S10000x1 ![] bcast_S_S10000x1 (constant (F := Ideal) S_ .f32 0x24E69595#32)))
    (wrapped (rowIds x6))

/-- `segment_sum(contrib, row)`: the per-edge rows summed into their source nodes. -/
def sumBySource (u : (⟨S640000x128, .f32⟩ : BufTy).Contents (Elt Ideal)) (x6 : (⟨S2x640000, .i32⟩ : BufTy).Contents (Elt Ideal)) : (⟨S10000x128, .f32⟩ : BufTy).Contents (Elt Ideal) :=
  Host.scatterAdd (F := Ideal) scatter_S10000x128_S640000x1_S640000x128_1_0_0_1 (broadcastInDim S10000x128 ![] bcast_S_S10000x128 (constant (F := Ideal) S_ .f32 0x00000000#32))
    (broadcastInDim S640000x1 ![0] bcast_S640000_S640000x1_0 (rowIds x6)) u

/-- The gate weights the first region leaves. -/
def gates (x0 : (⟨S10000x128, .f32⟩ : BufTy).Contents (Elt Ideal)) (x1 : (⟨S10000, .f32⟩ : BufTy).Contents (Elt Ideal)) (x2 : (⟨S256x1, .f32⟩ : BufTy).Contents (Elt Ideal)) (x3 : (⟨S1, .f32⟩ : BufTy).Contents (Elt Ideal))
    (x6 : (⟨S2x640000, .i32⟩ : BufTy).Contents (Elt Ideal)) : (⟨S640000x1, .f32⟩ : BufTy).Contents (Elt Ideal) :=
  gateArr (srcRows x0 x6) (dstRows x0 x6) (edgeWeights x1 x6) (gateRowHalf x2) (gateColHalf x2) (gateBias x3)

/-- The weighted messages the second region leaves. -/
def messages (x0 : (⟨S10000x128, .f32⟩ : BufTy).Contents (Elt Ideal)) (x1 : (⟨S10000, .f32⟩ : BufTy).Contents (Elt Ideal)) (x2 : (⟨S256x1, .f32⟩ : BufTy).Contents (Elt Ideal)) (x3 : (⟨S1, .f32⟩ : BufTy).Contents (Elt Ideal))
    (x4 : (⟨S256x128, .f32⟩ : BufTy).Contents (Elt Ideal)) (x5 : (⟨S128, .f32⟩ : BufTy).Contents (Elt Ideal)) (x6 : (⟨S2x640000, .i32⟩ : BufTy).Contents (Elt Ideal)) : (⟨S640000x128, .f32⟩ : BufTy).Contents (Elt Ideal) :=
  msgArr (srcRows x0 x6) (dstRows x0 x6) (gates x0 x1 x2 x3 x6) (recipRowSums (gates x0 x1 x2 x3 x6) x6)
    (msgRowHalf x4) (msgColHalf x4) (msgBias x5)

/-- The kernel program's result. -/
def kernelResult (x0 : (⟨S10000x128, .f32⟩ : BufTy).Contents (Elt Ideal)) (x1 : (⟨S10000, .f32⟩ : BufTy).Contents (Elt Ideal)) (x2 : (⟨S256x1, .f32⟩ : BufTy).Contents (Elt Ideal)) (x3 : (⟨S1, .f32⟩ : BufTy).Contents (Elt Ideal))
    (x4 : (⟨S256x128, .f32⟩ : BufTy).Contents (Elt Ideal)) (x5 : (⟨S128, .f32⟩ : BufTy).Contents (Elt Ideal)) (x6 : (⟨S2x640000, .i32⟩ : BufTy).Contents (Elt Ideal)) : (⟨S10000x128, .f32⟩ : BufTy).Contents (Elt Ideal) :=
  sumBySource (messages x0 x1 x2 x3 x4 x5 x6) x6

end Cert.Edge

end
-- ==== Proof.KValue.lean ====
/-
  The kernel program's result buffer at the end of its run, as a function of the argument arrays.

  The program is three stretches of host operations around two kernel regions. The contents of the TensorCore's buffers
  at each of the six boundaries are a fold from the launch memory: a stretch applies its operations, a region replaces
  its result array by what its write-backs leave and keeps every other buffer. This module walks that fold at the few
  buffers that matter — the gathered rows and weights and the small operands at the first region's entry, its result
  and what passes through it, the gathered reciprocal row sums at the second region's entry, its result, and the final
  per-node sum — and reads each as the stage function of the arguments that `Cert.Edge` names.
-/
import proofs.«163910_j53274774340079_1_alg».proof.Proof.Gen.KernelIdeal.Frame
import proofs.«163910_j53274774340079_1_alg».proof.Proof.GateRegion
import proofs.«163910_j53274774340079_1_alg».proof.Proof.MsgRegion
import proofs.«163910_j53274774340079_1_alg».proof.Proof.KernelStages
import Idealize.ShloMosaic.Lib.StableHlo.Run

set_option maxRecDepth 16384

noncomputable section

namespace Cert.KernelIdeal.Stages

open Cert.KernelIdeal Cert.KernelIdeal.Gen Cert.Edge
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## At the first region's entry: the first stretch applied to the launch memory -/

set_option maxHeartbeats 4000000 in
theorem entry0_ids : V1 m ρ c main_v1 = rowIds (m ((c : Thread nD τ).loc main_arg6)) := by
  show StableHlo.after hostOps0 (W0 m ρ c) (Proc.devRef .tc main_v1) = _
  after_results_simp
  rfl

set_option maxHeartbeats 4000000 in
theorem entry0_xr : V1 m ρ c main_v10 = srcRows (m ((c : Thread nD τ).loc main_arg0)) (m ((c : Thread nD τ).loc main_arg6)) := by
  show StableHlo.after hostOps0 (W0 m ρ c) (Proc.devRef .tc main_v10) = _
  after_results_simp
  rfl

set_option maxHeartbeats 4000000 in
theorem entry0_xc : V1 m ρ c main_v17 = dstRows (m ((c : Thread nD τ).loc main_arg0)) (m ((c : Thread nD τ).loc main_arg6)) := by
  show StableHlo.after hostOps0 (W0 m ρ c) (Proc.devRef .tc main_v17) = _
  after_results_simp
  rfl

set_option maxHeartbeats 4000000 in
theorem entry0_w : V1 m ρ c main_v25 = edgeWeights (m ((c : Thread nD τ).loc main_arg1)) (m ((c : Thread nD τ).loc main_arg6)) := by
  show StableHlo.after hostOps0 (W0 m ρ c) (Proc.devRef .tc main_v25) = _
  after_results_simp
  rfl

set_option maxHeartbeats 4000000 in
theorem entry0_gr : V1 m ρ c main_v27 = gateRowHalf (m ((c : Thread nD τ).loc main_arg2)) := by
  show StableHlo.after hostOps0 (W0 m ρ c) (Proc.devRef .tc main_v27) = _
  after_results_simp
  rfl

set_option maxHeartbeats 4000000 in
theorem entry0_gc : V1 m ρ c main_v29 = gateColHalf (m ((c : Thread nD τ).loc main_arg2)) := by
  show StableHlo.after hostOps0 (W0 m ρ c) (Proc.devRef .tc main_v29) = _
  after_results_simp
  rfl

set_option maxHeartbeats 4000000 in
theorem entry0_gb : V1 m ρ c main_v30 = gateBias (m ((c : Thread nD τ).loc main_arg3)) := by
  show StableHlo.after hostOps0 (W0 m ρ c) (Proc.devRef .tc main_v30) = _
  after_results_simp
  rfl

set_option maxHeartbeats 4000000 in
theorem entry0_mr : V1 m ρ c main_v31 = msgRowHalf (m ((c : Thread nD τ).loc main_arg4)) := by
  show StableHlo.after hostOps0 (W0 m ρ c) (Proc.devRef .tc main_v31) = _
  after_results_simp
  rfl

set_option maxHeartbeats 4000000 in
theorem entry0_mc : V1 m ρ c main_v32 = msgColHalf (m ((c : Thread nD τ).loc main_arg4)) := by
  show StableHlo.after hostOps0 (W0 m ρ c) (Proc.devRef .tc main_v32) = _
  after_results_simp
  rfl

set_option maxHeartbeats 4000000 in
theorem entry0_mb : V1 m ρ c main_v33 = msgBias (m ((c : Thread nD τ).loc main_arg5)) := by
  show StableHlo.after hostOps0 (W0 m ρ c) (Proc.devRef .tc main_v33) = _
  after_results_simp
  rfl

/-! ## At the first region's exit: its result array, its input arrays as entered, every other buffer as entered -/

theorem exit0_gates : W2 m ρ c (Proc.devRef .tc main_v34) = gates (m ((c : Thread nD τ).loc main_arg0)) (m ((c : Thread nD τ).loc main_arg1)) (m ((c : Thread nD τ).loc main_arg2)) (m ((c : Thread nD τ).loc main_arg3)) (m ((c : Thread nD τ).loc main_arg6)) := by
  refine ((W2_arr m ρ c 6).trans (GateRegion.result (V1 m ρ) c)).trans ?_
  rw [entry0_xr, entry0_xc, entry0_w, entry0_gr, entry0_gc, entry0_gb]
  rfl

theorem exit0_xr : W2 m ρ c (Proc.devRef .tc main_v10) = srcRows (m ((c : Thread nD τ).loc main_arg0)) (m ((c : Thread nD τ).loc main_arg6)) :=
  ((W2_arr m ρ c 0).trans ((dat0 (V1 m ρ) c).arrAt_in 0 rfl cfg0.N)).trans ((A_eq0 (V1 m ρ) c 0).trans (entry0_xr m ρ c))

theorem exit0_xc : W2 m ρ c (Proc.devRef .tc main_v17) = dstRows (m ((c : Thread nD τ).loc main_arg0)) (m ((c : Thread nD τ).loc main_arg6)) :=
  ((W2_arr m ρ c 1).trans ((dat0 (V1 m ρ) c).arrAt_in 1 rfl cfg0.N)).trans ((A_eq0 (V1 m ρ) c 1).trans (entry0_xc m ρ c))

theorem exit0_ids : W2 m ρ c (Proc.devRef .tc main_v1) = rowIds (m ((c : Thread nD τ).loc main_arg6)) :=
  (W2_of_ne m ρ c main_v1 (by decide)).trans (entry0_ids m ρ c)
theorem exit0_mr : W2 m ρ c (Proc.devRef .tc main_v31) = msgRowHalf (m ((c : Thread nD τ).loc main_arg4)) :=
  (W2_of_ne m ρ c main_v31 (by decide)).trans (entry0_mr m ρ c)
theorem exit0_mc : W2 m ρ c (Proc.devRef .tc main_v32) = msgColHalf (m ((c : Thread nD τ).loc main_arg4)) :=
  (W2_of_ne m ρ c main_v32 (by decide)).trans (entry0_mc m ρ c)
theorem exit0_mb : W2 m ρ c (Proc.devRef .tc main_v33) = msgBias (m ((c : Thread nD τ).loc main_arg5)) :=
  (W2_of_ne m ρ c main_v33 (by decide)).trans (entry0_mb m ρ c)

/-! ## At the second region's entry: the second stretch applied to the first region's exit -/

set_option maxHeartbeats 4000000 in
theorem entry1_ids : V3 m ρ c main_v1 = rowIds (m ((c : Thread nD τ).loc main_arg6)) := by
  show StableHlo.after hostOps1 (W2 m ρ c) (Proc.devRef .tc main_v1) = _
  after_results_simp
  exact exit0_ids m ρ c
set_option maxHeartbeats 4000000 in
theorem entry1_xr : V3 m ρ c main_v10 = srcRows (m ((c : Thread nD τ).loc main_arg0)) (m ((c : Thread nD τ).loc main_arg6)) := by
  show StableHlo.after hostOps1 (W2 m ρ c) (Proc.devRef .tc main_v10) = _
  after_results_simp
  exact exit0_xr m ρ c
set_option maxHeartbeats 4000000 in
theorem entry1_xc : V3 m ρ c main_v17 = dstRows (m ((c : Thread nD τ).loc main_arg0)) (m ((c : Thread nD τ).loc main_arg6)) := by
  show StableHlo.after hostOps1 (W2 m ρ c) (Proc.devRef .tc main_v17) = _
  after_results_simp
  exact exit0_xc m ρ c
set_option maxHeartbeats 4000000 in
theorem entry1_gates : V3 m ρ c main_v34 = gates (m ((c : Thread nD τ).loc main_arg0)) (m ((c : Thread nD τ).loc main_arg1)) (m ((c : Thread nD τ).loc main_arg2)) (m ((c : Thread nD τ).loc main_arg3)) (m ((c : Thread nD τ).loc main_arg6)) := by
  show StableHlo.after hostOps1 (W2 m ρ c) (Proc.devRef .tc main_v34) = _
  after_results_simp
  exact exit0_gates m ρ c
set_option maxHeartbeats 4000000 in
theorem entry1_mr : V3 m ρ c main_v31 = msgRowHalf (m ((c : Thread nD τ).loc main_arg4)) := by
  show StableHlo.after hostOps1 (W2 m ρ c) (Proc.devRef .tc main_v31) = _
  after_results_simp
  exact exit0_mr m ρ c
set_option maxHeartbeats 4000000 in
theorem entry1_mc : V3 m ρ c main_v32 = msgColHalf (m ((c : Thread nD τ).loc main_arg4)) := by
  show StableHlo.after hostOps1 (W2 m ρ c) (Proc.devRef .tc main_v32) = _
  after_results_simp
  exact exit0_mc m ρ c
set_option maxHeartbeats 4000000 in
theorem entry1_mb : V3 m ρ c main_v33 = msgBias (m ((c : Thread nD τ).loc main_arg5)) := by
  show StableHlo.after hostOps1 (W2 m ρ c) (Proc.devRef .tc main_v33) = _
  after_results_simp
  exact exit0_mb m ρ c
set_option maxHeartbeats 4000000 in
theorem entry1_recip : V3 m ρ c main_v48 = recipRowSums (gates (m ((c : Thread nD τ).loc main_arg0)) (m ((c : Thread nD τ).loc main_arg1)) (m ((c : Thread nD τ).loc main_arg2)) (m ((c : Thread nD τ).loc main_arg3)) (m ((c : Thread nD τ).loc main_arg6))) (m ((c : Thread nD τ).loc main_arg6)) := by
  show StableHlo.after hostOps1 (W2 m ρ c) (Proc.devRef .tc main_v48) = _
  after_results_simp
  rw [exit0_ids, exit0_gates]
  rfl

/-! ## At the second region's exit, and the last stretch -/

theorem exit1_messages : W4 m ρ c (Proc.devRef .tc main_v49) = messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W4_arr m ρ c 7).trans (MsgRegion.result (V3 m ρ) c)).trans ?_
  rw [entry1_xr, entry1_xc, entry1_gates, entry1_recip, entry1_mr, entry1_mc, entry1_mb]
  rfl

theorem exit1_ids : W4 m ρ c (Proc.devRef .tc main_v1) = rowIds (m ((c : Thread nD τ).loc main_arg6)) :=
  (W4_of_ne m ρ c main_v1 (by decide)).trans (entry1_ids m ρ c)

set_option maxHeartbeats 4000000 in
/-- The result buffer at the end of the run. -/
theorem result_value : W5 m ρ c (Proc.devRef .tc main_v52) = kernelResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v52) = _
  after_results_simp
  rw [exit1_ids, exit1_messages]
  rfl

end Cert.KernelIdeal.Stages

end
-- ==== Proof.RefEdge.lean ====
/-
  The reference's gate weights and weighted messages are the edge functions of its own gathered rows.

  The reference concatenates each edge's source row and target row into one row of 256 features and contracts it with
  the whole 256-row gate vector (and message matrix); the kernel keeps the two rows apart and contracts each with its
  half. A sum over 256 = 128 + 128 indices is the sum over the first 128 plus the sum over the last 128 in any additive
  commutative monoid — no finiteness is needed —, the concatenation read at a feature below 128 is the source row and
  at 128 + k the target row's feature k, and the halves of the gate vector and of the message matrix are its first and
  last 128 rows. Everything else in the two stages is the same operation on both sides.
-/
import proofs.«163910_j53274774340079_1_alg».proof.Proof.Gen.ReferenceIdeal.Read
import proofs.«163910_j53274774340079_1_alg».proof.Proof.KernelStages
import Idealize.ShloMosaic.Lib.ValueIdx
import Idealize.ShloMosaic.Lib.ValueLayout
import Idealize.ShloMosaic.Lib.Pipeline.Value
import Idealize.ShloMosaic.PureOps.Ideal.Laws

noncomputable section

namespace Cert.Edge

open Cert.KernelIdeal Cert.KernelIdeal.Gen Cert.ReferenceIdeal.Read Idealize.ShloMosaic Idealize.ShloMosaic.ValueIdx

/-! ## The small operands, as the kernel's program lays them out, read at an index -/

theorem gateRowHalf_apply (x2 : (⟨S256x1, .f32⟩ : BufTy).Contents (Elt Ideal)) (k : Fin 128) (j : S256x1.Idx) (h0 : (j 0).val = k.val) (h1 : (j 1).val = 0) :
    gateRowHalf x2 (ix2 (0 : Fin 1) k) = x2 j := by
  unfold gateRowHalf
  refine (shapeCast_apply _ shapeCasts_S128x1_S1x128 (ix2 (0 : Fin 1) k) (ix2 k (0 : Fin 1)) ?_).trans ?_
  · rw [Shape.rowMajor_val_two, Shape.rowMajor_val_two]
    show k.val * 1 + 0 = 0 * 128 + k.val
    omega
  · exact extractStridedSlice_apply _ _ _ _ _ (fun a => match a with
      | ⟨0, _⟩ => by show (j 0).val = 0 + k.val; omega
      | ⟨1, _⟩ => by show (j 1).val = 0 + 0; omega)

theorem gateColHalf_apply (x2 : (⟨S256x1, .f32⟩ : BufTy).Contents (Elt Ideal)) (k : Fin 128) (j : S256x1.Idx) (h0 : (j 0).val = 128 + k.val) (h1 : (j 1).val = 0) :
    gateColHalf x2 (ix2 (0 : Fin 1) k) = x2 j := by
  unfold gateColHalf
  refine (shapeCast_apply _ shapeCasts_S128x1_S1x128 (ix2 (0 : Fin 1) k) (ix2 k (0 : Fin 1)) ?_).trans ?_
  · rw [Shape.rowMajor_val_two, Shape.rowMajor_val_two]
    show k.val * 1 + 0 = 0 * 128 + k.val
    omega
  · exact extractStridedSlice_apply _ _ _ _ _ (fun a => match a with
      | ⟨0, _⟩ => by show (j 0).val = 128 + k.val; omega
      | ⟨1, _⟩ => by show (j 1).val = 0 + 0; omega)

theorem gateBias_apply (x3 : (⟨S1, .f32⟩ : BufTy).Contents (Elt Ideal)) (j : S1.Idx) :
    gateBias x3 (ix2 (0 : Fin 1) (0 : Fin 1)) = x3 j := by
  unfold gateBias
  refine (shapeCast_a_1a_apply x3 shapeCasts_S1_S1x1 (0 : Fin 1) (0 : Fin 1)).trans ?_
  exact congrArg x3 (funext fun a => match a with
    | ⟨0, _⟩ => Fin.ext (by have h : (j 0).val < 1 := (j 0).isLt; show 0 = (j 0).val; omega))

theorem msgRowHalf_apply (x4 : (⟨S256x128, .f32⟩ : BufTy).Contents (Elt Ideal)) (k q : Fin 128) (j : S256x128.Idx) (h0 : (j 0).val = k.val) (h1 : (j 1).val = q.val) :
    msgRowHalf x4 (ix2 k q) = x4 j := by
  unfold msgRowHalf
  exact extractStridedSlice_apply _ _ _ _ _ (fun a => match a with
    | ⟨0, _⟩ => by show (j 0).val = 0 + k.val; omega
    | ⟨1, _⟩ => by show (j 1).val = 0 + q.val; omega)

theorem msgColHalf_apply (x4 : (⟨S256x128, .f32⟩ : BufTy).Contents (Elt Ideal)) (k q : Fin 128) (j : S256x128.Idx) (h0 : (j 0).val = 128 + k.val) (h1 : (j 1).val = q.val) :
    msgColHalf x4 (ix2 k q) = x4 j := by
  unfold msgColHalf
  exact extractStridedSlice_apply _ _ _ _ _ (fun a => match a with
    | ⟨0, _⟩ => by show (j 0).val = 128 + k.val; omega
    | ⟨1, _⟩ => by show (j 1).val = 0 + q.val; omega)

theorem msgBias_apply (x5 : (⟨S128, .f32⟩ : BufTy).Contents (Elt Ideal)) (q : Fin 128) (j : S128.Idx) (h0 : (j 0).val = q.val) :
    msgBias x5 (ix2 (0 : Fin 1) q) = x5 j := by
  unfold msgBias
  refine (shapeCast_a_1a_apply x5 shapeCasts_S128_S1x128 (0 : Fin 1) q).trans ?_
  exact congrArg x5 (funext fun a => match a with | ⟨0, _⟩ => Fin.ext h0.symm)

/-! ## A sum over 256 indices, by halves -/

theorem sum_halves {M : Type} [AddCommMonoid M] (f : Fin 256 → M) :
    ∑ k : Fin 256, f k = (∑ k : Fin 128, f ⟨k.val, by omega⟩) + ∑ k : Fin 128, f ⟨128 + k.val, by omega⟩ :=
  Fin.sum_univ_add (a := 128) (b := 128) f

/-! ## The concatenated rows, read at a feature -/

theorem cat_low (xa xb : (⟨S640000x128, .f32⟩ : BufTy).Contents (Elt Ideal)) (e : Fin 640000) (k : Fin 128) (j : Cert.ReferenceIdeal.S640000x256.Idx)
    (hcat : Shape.Concatenates [S640000x128, S640000x128] Cert.ReferenceIdeal.S640000x256 (1 : Fin 2)) (h0 : (j 0).val = e.val) (h1 : (j 1).val = k.val) :
    concatenate Cert.ReferenceIdeal.S640000x256 1 [⟨S640000x128, xa⟩, ⟨S640000x128, xb⟩] hcat j
      = xa (ix2 e k) :=
  concatenate_pair_apply_left (1 : Fin 2) xa xb _ j rfl (ix2 e k) (fun b => match b with
    | ⟨0, _⟩ => h0.symm
    | ⟨1, _⟩ => h1.symm)

theorem cat_high (xa xb : (⟨S640000x128, .f32⟩ : BufTy).Contents (Elt Ideal)) (e : Fin 640000) (k : Fin 128) (j : Cert.ReferenceIdeal.S640000x256.Idx)
    (hcat : Shape.Concatenates [S640000x128, S640000x128] Cert.ReferenceIdeal.S640000x256 (1 : Fin 2)) (h0 : (j 0).val = e.val) (h1 : (j 1).val = 128 + k.val) :
    concatenate Cert.ReferenceIdeal.S640000x256 1 [⟨S640000x128, xa⟩, ⟨S640000x128, xb⟩] hcat j
      = xb (ix2 e k) :=
  concatenate_pair_apply_right (1 : Fin 2) xa xb _ j rfl rfl (ix2 e k)
    (fun b hb => match b, hb with
      | ⟨0, _⟩, _ => h0.symm
      | ⟨1, _⟩, hb => absurd rfl hb)
    (by show k.val + 128 = (j 1).val; omega)

/-! ## The two stages -/

/-- The reference's unnormalised gate weights are the gate function of its gathered rows. -/
theorem gate_stage (x0 : (⟨S10000x128, .f32⟩ : BufTy).Contents (Elt Ideal)) (x1 : (⟨S10000, .f32⟩ : BufTy).Contents (Elt Ideal)) (x2 : (⟨S256x1, .f32⟩ : BufTy).Contents (Elt Ideal))
    (x3 : (⟨S1, .f32⟩ : BufTy).Contents (Elt Ideal)) (x6 : (⟨S2x640000, .i32⟩ : BufTy).Contents (Elt Ideal)) :
    val_main_v32 (F := Ideal) x0 x1 x2 x3 x6
      = gateArr (val_main_v10 (F := Ideal) x0 x6) (val_main_v17 (F := Ideal) x0 x6) (val_main_v30 (F := Ideal) x1 x6)
          (gateRowHalf x2) (gateColHalf x2) (gateBias x3) := by
  funext i
  obtain ⟨e, z, rfl⟩ : ∃ (e : Fin 640000) (z : Fin 1), i = ix2 e z := ⟨i 0, i 1, eq_ix2 i⟩
  obtain rfl : z = 0 := Subsingleton.elim _ _
  rw [val_main_v32_apply, val_main_v31_apply, val_main_v22_apply, val_main_v19_apply, val_main_v21_apply, val_main_v20_apply,
    sum_halves]
  show val_main_v30 (F := Ideal) x1 x6 (ix2 e (0 : Fin 1)) * Ideal.exp ((_ + _) + _) = gateAt _ _ _ _ _ _ e
  unfold gateAt
  refine congrArg₂ (· * ·) rfl (congrArg Ideal.exp (congrArg₂ (· + ·) (congrArg₂ (· + ·) ?_ ?_) ?_))
  · refine Finset.sum_congr rfl fun k _ => congrArg₂ (· * ·) ?_ ?_
    · unfold val_main_v18
      exact cat_low _ _ e k _ _ rfl rfl
    · exact (gateRowHalf_apply x2 k _ rfl rfl).symm
  · refine Finset.sum_congr rfl fun k _ => congrArg₂ (· * ·) ?_ ?_
    · unfold val_main_v18
      exact cat_high _ _ e k _ _ rfl rfl
    · exact (gateColHalf_apply x2 k _ rfl rfl).symm
  · exact (gateBias_apply x3 _).symm

/-- The reference's weighted messages are the message function of its gathered rows, its gate weights and its gathered
    reciprocal row sums. -/
theorem msg_stage (x0 : (⟨S10000x128, .f32⟩ : BufTy).Contents (Elt Ideal)) (x1 : (⟨S10000, .f32⟩ : BufTy).Contents (Elt Ideal)) (x2 : (⟨S256x1, .f32⟩ : BufTy).Contents (Elt Ideal))
    (x3 : (⟨S1, .f32⟩ : BufTy).Contents (Elt Ideal)) (x4 : (⟨S256x128, .f32⟩ : BufTy).Contents (Elt Ideal)) (x5 : (⟨S128, .f32⟩ : BufTy).Contents (Elt Ideal)) (x6 : (⟨S2x640000, .i32⟩ : BufTy).Contents (Elt Ideal)) :
    val_main_v53 (F := Ideal) x0 x1 x2 x3 x4 x5 x6
      = msgArr (val_main_v10 (F := Ideal) x0 x6) (val_main_v17 (F := Ideal) x0 x6) (val_main_v32 (F := Ideal) x0 x1 x2 x3 x6)
          (val_main_v46 (F := Ideal) x0 x1 x2 x3 x6) (msgRowHalf x4) (msgColHalf x4) (msgBias x5) := by
  funext i
  obtain ⟨e, q, rfl⟩ : ∃ (e : Fin 640000) (q : Fin 128), i = ix2 e q := ⟨i 0, i 1, eq_ix2 i⟩
  have hidx : idx_main_v52 (ix2 e q) = ix2 e (0 : Fin 1) := funext fun a => Fin.ext (by
    match a with
    | ⟨0, _⟩ => rfl
    | ⟨1, _⟩ => rfl)
  rw [val_main_v53_apply, val_main_v52_apply, val_main_v47_apply, val_main_v51_apply, val_main_v48_apply, val_main_v50_apply,
    val_main_v49_apply, sum_halves, hidx]
  show (val_main_v32 (F := Ideal) x0 x1 x2 x3 x6 (ix2 e (0 : Fin 1)) * val_main_v46 (F := Ideal) x0 x1 x2 x3 x6 (ix2 e (0 : Fin 1)))
      * ((_ + _) + _) = msgAt _ _ _ _ _ _ _ e q
  unfold msgAt
  refine congrArg₂ (· * ·) rfl (congrArg₂ (· + ·) (congrArg₂ (· + ·) ?_ ?_) ?_)
  · refine Finset.sum_congr rfl fun k _ => congrArg₂ (· * ·) ?_ ?_
    · unfold val_main_v18
      exact cat_low _ _ e k _ _ rfl rfl
    · exact (msgRowHalf_apply x4 k q _ rfl rfl).symm
  · refine Finset.sum_congr rfl fun k _ => congrArg₂ (· * ·) ?_ ?_
    · unfold val_main_v18
      exact cat_high _ _ e k _ _ rfl rfl
    · exact (msgColHalf_apply x4 k q _ rfl rfl).symm
  · exact (msgBias_apply x5 q _ rfl).symm

end Cert.Edge

end
-- ==== Proof.RefValue.lean ====
/-
  The reference's result is the kernel program's stage function of the same arguments.

  Outside the gate and message stages the two programs apply the same host operations to the same values: the same
  wrapped gathers of the node features and positions, the same per-node sum of the gate weights, the same
  `1 / sum + 1e-16` (the same literal word) gathered back per edge, the same per-node sum of the weighted messages.
  Those are carried as they are printed; the two stages in between are `Cert.Edge.gate_stage` and `Cert.Edge.msg_stage`.
-/
import proofs.«163910_j53274774340079_1_alg».proof.Proof.RefEdge

noncomputable section

namespace Cert.Edge

open Cert.KernelIdeal Cert.KernelIdeal.Gen Cert.ReferenceIdeal.Read Idealize.ShloMosaic

theorem ref_srcRows (x0 : (⟨S10000x128, .f32⟩ : BufTy).Contents (Elt Ideal)) (x6 : (⟨S2x640000, .i32⟩ : BufTy).Contents (Elt Ideal)) :
    val_main_v10 (F := Ideal) x0 x6 = srcRows x0 x6 := rfl
theorem ref_dstRows (x0 : (⟨S10000x128, .f32⟩ : BufTy).Contents (Elt Ideal)) (x6 : (⟨S2x640000, .i32⟩ : BufTy).Contents (Elt Ideal)) :
    val_main_v17 (F := Ideal) x0 x6 = dstRows x0 x6 := rfl
theorem ref_edgeWeights (x1 : (⟨S10000, .f32⟩ : BufTy).Contents (Elt Ideal)) (x6 : (⟨S2x640000, .i32⟩ : BufTy).Contents (Elt Ideal)) :
    val_main_v30 (F := Ideal) x1 x6 = edgeWeights x1 x6 := rfl
theorem ref_recip (x0 : (⟨S10000x128, .f32⟩ : BufTy).Contents (Elt Ideal)) (x1 : (⟨S10000, .f32⟩ : BufTy).Contents (Elt Ideal)) (x2 : (⟨S256x1, .f32⟩ : BufTy).Contents (Elt Ideal)) (x3 : (⟨S1, .f32⟩ : BufTy).Contents (Elt Ideal))
    (x6 : (⟨S2x640000, .i32⟩ : BufTy).Contents (Elt Ideal)) :
    val_main_v46 (F := Ideal) x0 x1 x2 x3 x6 = recipRowSums (val_main_v32 (F := Ideal) x0 x1 x2 x3 x6) x6 := rfl
theorem ref_sum (x0 : (⟨S10000x128, .f32⟩ : BufTy).Contents (Elt Ideal)) (x1 : (⟨S10000, .f32⟩ : BufTy).Contents (Elt Ideal)) (x2 : (⟨S256x1, .f32⟩ : BufTy).Contents (Elt Ideal)) (x3 : (⟨S1, .f32⟩ : BufTy).Contents (Elt Ideal))
    (x4 : (⟨S256x128, .f32⟩ : BufTy).Contents (Elt Ideal)) (x5 : (⟨S128, .f32⟩ : BufTy).Contents (Elt Ideal)) (x6 : (⟨S2x640000, .i32⟩ : BufTy).Contents (Elt Ideal)) :
    val_main_v56 (F := Ideal) x0 x1 x2 x3 x4 x5 x6 = sumBySource (val_main_v53 (F := Ideal) x0 x1 x2 x3 x4 x5 x6) x6 := rfl

/-- The reference's gate weights are the kernel program's. -/
theorem ref_gates (x0 : (⟨S10000x128, .f32⟩ : BufTy).Contents (Elt Ideal)) (x1 : (⟨S10000, .f32⟩ : BufTy).Contents (Elt Ideal)) (x2 : (⟨S256x1, .f32⟩ : BufTy).Contents (Elt Ideal)) (x3 : (⟨S1, .f32⟩ : BufTy).Contents (Elt Ideal))
    (x6 : (⟨S2x640000, .i32⟩ : BufTy).Contents (Elt Ideal)) :
    val_main_v32 (F := Ideal) x0 x1 x2 x3 x6 = gates x0 x1 x2 x3 x6 := by
  rw [gate_stage, ref_srcRows, ref_dstRows, ref_edgeWeights]
  rfl

/-- The reference's weighted messages are the kernel program's. -/
theorem ref_messages (x0 : (⟨S10000x128, .f32⟩ : BufTy).Contents (Elt Ideal)) (x1 : (⟨S10000, .f32⟩ : BufTy).Contents (Elt Ideal)) (x2 : (⟨S256x1, .f32⟩ : BufTy).Contents (Elt Ideal)) (x3 : (⟨S1, .f32⟩ : BufTy).Contents (Elt Ideal))
    (x4 : (⟨S256x128, .f32⟩ : BufTy).Contents (Elt Ideal)) (x5 : (⟨S128, .f32⟩ : BufTy).Contents (Elt Ideal)) (x6 : (⟨S2x640000, .i32⟩ : BufTy).Contents (Elt Ideal)) :
    val_main_v53 (F := Ideal) x0 x1 x2 x3 x4 x5 x6 = messages x0 x1 x2 x3 x4 x5 x6 := by
  rw [msg_stage, ref_recip, ref_gates, ref_srcRows, ref_dstRows]
  rfl

/-- The reference's result is the kernel program's. -/
theorem ref_result (x0 : (⟨S10000x128, .f32⟩ : BufTy).Contents (Elt Ideal)) (x1 : (⟨S10000, .f32⟩ : BufTy).Contents (Elt Ideal)) (x2 : (⟨S256x1, .f32⟩ : BufTy).Contents (Elt Ideal)) (x3 : (⟨S1, .f32⟩ : BufTy).Contents (Elt Ideal))
    (x4 : (⟨S256x128, .f32⟩ : BufTy).Contents (Elt Ideal)) (x5 : (⟨S128, .f32⟩ : BufTy).Contents (Elt Ideal)) (x6 : (⟨S2x640000, .i32⟩ : BufTy).Contents (Elt Ideal)) :
    val_main_v56 (F := Ideal) x0 x1 x2 x3 x4 x5 x6 = kernelResult x0 x1 x2 x3 x4 x5 x6 := by
  rw [ref_sum, ref_messages]
  rfl

end Cert.Edge

end
-- ==== Proof.lean ====
/-
  Weighted attention pooling over a graph's edges: a Pallas kernel program against its jnp reference, equal over the
  extended reals.

  For each edge `e = (row, col)` with `cat e` the source node's features followed by the target node's (256 numbers):

      a e     = pos col · exp (cat e · Wg + bg)                      (unnormalised gate weight)
      inv n   = 1 / Σ_{e : row e = n} a e  +  1e-16
      out n   = Σ_{e : row e = n} (a e · inv (row e)) · (cat e · Wm + bm)

  The reference computes this from the concatenated rows. The kernel program gathers the source rows and the target rows
  separately and runs two kernel regions over blocks of 2000 edges: the first computes `a` with the gate vector split in
  its two halves of 128 (two lane sums), the second computes the summands of `out` with the message matrix split the
  same way (two matrix products into zero accumulators, the operands first converted to a narrower float format, which
  is the identity on the extended reals). The gathers, the per-node sums and `1 / · + 1e-16` are the same host operations
  in both programs.

  So the two results are one function of the arguments, and the one law between the two texts is that a sum over
  256 = 128 + 128 indices is the sum of its two halves — true in any additive commutative monoid, so the inputs'
  finiteness is never used.

  The modules: `GateBody`, `MsgBody` (each region's body at an index), `GateRegion`, `MsgRegion` (each region's result
  array as a whole-array function `Cert.Edge.gateArr`, `Cert.Edge.msgArr`), `KernelStages` (the kernel program's stages
  as functions of the arguments), `KRun` and `KValue` (the kernel program's run with its result buffer read),
  `RefEdge` and `RefValue` (the reference's result is the same function), and the claims below.
-/
import proofs.«163910_j53274774340079_1_alg».proof.Defs
import proofs.«163910_j53274774340079_1_alg».proof.Proof.Gen.Kernel
import proofs.«163910_j53274774340079_1_alg».proof.Proof.Gen.Kernel.Frame
import proofs.«163910_j53274774340079_1_alg».proof.Proof.Gen.KernelIdeal
import proofs.«163910_j53274774340079_1_alg».proof.Proof.Gen.KernelIdeal.Frame
import proofs.«163910_j53274774340079_1_alg».proof.Proof.Gen.ReferenceIdeal
import proofs.«163910_j53274774340079_1_alg».proof.Proof.Gen.ReferenceIdeal.Run
import proofs.«163910_j53274774340079_1_alg».proof.Proof.Gen.ReferenceIdeal.Read
import proofs.«163910_j53274774340079_1_alg».proof.Proof.Gen.Pre_finite_inputs
import proofs.«163910_j53274774340079_1_alg».proof.Proof.KRun
import proofs.«163910_j53274774340079_1_alg».proof.Proof.KValue
import proofs.«163910_j53274774340079_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at `Cert.Edge.kernelResult` of the arguments. -/
theorem algebraic : Cert.algebraic_KernelIdeal_ReferenceIdeal := by
  intro m ρ m' ρ' _ hagree
  refine ⟨fun c => Cert.Edge.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Stages.result_value m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v56_eq, (hagree c).1, (hagree c).2.1, (hagree c).2.2.1, (hagree c).2.2.2.1,
      (hagree c).2.2.2.2.1, (hagree c).2.2.2.2.2.1, (hagree c).2.2.2.2.2.2]
    exact Cert.Edge.ref_result _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
